-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S600000x128 : Shape := ⟨2, ![600000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part3 {F : FTy → Type} [FloatOps F] (main_arg2 : IVec S600000 32) (main_v48 : IVec S_ 1) (main_v50 : IVec S600000 1) : IVec S_ 1 :=
  let main_c_19 : IVec S_ 32 := constantI S_ 32 49999#32
  let main_v51 : IVec S600000 32 := broadcastInDim S600000 ![] bcast_S_S600000 main_c_19
  let main_v52 : IVec S600000 1 := cmpi .sle main_arg2 main_v51
  let main_v53 : IVec S600000 1 := andi main_v50 main_v52
  let main_c_20 : IVec S_ 1 := constantI S_ 1 1#1
  let main_v54 : IVec S_ 1 := (fun x v => Host.reduce IntOp.andi x v reducesTo_S600000_S_d0 h_S_) main_v53 main_c_20
  let main_v55 : IVec S_ 1 := andi main_v48 main_v54
  main_v55

def fn_part2 {F : FTy → Type} [FloatOps F] (main_arg2 : IVec S600000 32) (main_arg9 : FVec F S128 .f32) (main_arg10 : FVec F S128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S600000 32 := broadcastInDim S600000 ![] bcast_S_S600000 main_c_18
  let main_v50 : IVec S600000 1 := cmpi .sge main_arg2 main_v49
  fn_part3 (F := F) main_arg2 main_v48 main_v50

def fn_part1 {F : FTy → Type} [FloatOps F] (main_arg2 : IVec S600000 32) (main_arg6 : FVec F S128x128 .f32) (main_arg7 : FVec F S128 .f32) (main_arg8 : FVec F S128x128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_arg10 main_arg11 main_v33

def fn {F : FTy → Type} [FloatOps F] (main_arg0 : FVec F S50000x128 .f32) (main_arg1 : IVec S600000 32) (main_arg2 : IVec S600000 32) (main_arg3 : FVec F S600000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg3
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_v13 main_v16
-- ==== Kernel.lean ====
abbrev S50000x128 : Shape := ⟨2, ![50000, 128]⟩
abbrev S600000 : Shape := ⟨1, ![600000]⟩
abbrev S600000x128 : Shape := ⟨2, ![600000, 128]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S5000 : Shape := ⟨1, ![5000]⟩
abbrev S5000x1 : Shape := ⟨2, ![5000, 1]⟩

abbrev nBuf : Space → Nat
  | .hbm => 45
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S50000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S1, .i32⟩
  | .hbm, ⟨25, _⟩ => ⟨S_, .i32⟩
  | .hbm, ⟨26, _⟩ => ⟨S600000x1, .i32⟩
  | .hbm, ⟨27, _⟩ => ⟨S600000x1, .i1⟩
  | .hbm, ⟨28, _⟩ => ⟨S1x1, .i32⟩
  | .hbm, ⟨29, _⟩ => ⟨S600000x1, .i32⟩
  | .hbm, ⟨30, _⟩ => ⟨S600000x1, .i1⟩
  | .hbm, ⟨31, _⟩ => ⟨S600000x1, .i1⟩
  | .hbm, ⟨32, _⟩ => ⟨S_, .i1⟩
  | .hbm, ⟨33, _⟩ => ⟨S600000, .i1⟩
  | .hbm, ⟨34, _⟩ => ⟨S600000x128, .f32⟩
  | .hbm, ⟨35, _⟩ => ⟨S600000x128, .i1⟩
  | .hbm, ⟨36, _⟩ => ⟨S_, .f32⟩
  | .hbm, ⟨37, _⟩ => ⟨S600000x128, .f32⟩
  | .hbm, ⟨38, _⟩ => ⟨S600000x128, .f32⟩
  | .hbm, ⟨39, _⟩ => ⟨S600000x128, .f32⟩
  | .hbm, ⟨40, _⟩ => ⟨S_, .f32⟩
  | .hbm, ⟨41, _⟩ => ⟨S50000x128, .f32⟩
  | .hbm, ⟨42, _⟩ => ⟨S600000x1, .i32⟩
  | .hbm, ⟨43, _⟩ => ⟨S50000x128, .f32⟩
  | .hbm, ⟨44, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_v5 : Ref sig .tc := ⟨.hbm, 39, rfl⟩
abbrev main_cst : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![120], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S5000x128_S5000x128 : S5000x128.ShapeCasts S5000x128
  bcast_S_S50000x128 : S_.BroadcastsInDim S50000x128 (![] : Fin 0 → Fin S50000x128.rank)
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S600000x128.size a
  hwx1_0 : ∀ i : grid1.Coords, EltTy.bits .f32 = 32 ∨ (Rect.block (s := S600000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S600000x128.size a
  hwx1_1 : ∀ i : grid1.Coords, EltTy.bits .f32 = 32 ∨ (Rect.block (s := S600000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S600000x128.size a
  hwx1_6 : ∀ i : grid1.Coords, EltTy.bits .f32 = 32 ∨ (Rect.block (s := S600000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S600000x128 : Shape := ⟨2, ![600000, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S600000x1 : Shape := ⟨2, ![600000, 1]⟩
abbrev S50000 : Shape := ⟨1, ![50000]⟩
abbrev S50000x1 : Shape := ⟨2, ![50000, 1]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S128x128, .f32⟩
  | .hbm, ⟨18, _⟩ => ⟨S600000x128, .f32⟩
  | .hbm, ⟨19, _⟩ => ⟨S128x128, .f32⟩
  | .hbm, ⟨20, _⟩ => ⟨S600000x128, .f32⟩
  | .hbm, ⟨21, _⟩ => ⟨S1x128, .f32⟩
  | .hbm, ⟨22, _⟩ => ⟨S600000x128, .f32⟩
  | .hbm, ⟨23, _⟩ => ⟨S600000x128, .f32⟩
  | .hbm, ⟨24, _⟩ => ⟨S600000x128, .f32⟩
  | .hbm, ⟨25, _⟩ => ⟨S600000x128, .f32⟩
  | .hbm, ⟨26, _⟩ => ⟨S_, .f32⟩
  | .hbm, ⟨27, _⟩ => ⟨S600000x128, .f32⟩
  | .hbm, ⟨28, _⟩ => ⟨S600000x128, .f32⟩
  | .hbm, ⟨29, _⟩ => ⟨S_, .f32⟩
  | .hbm, ⟨30, _⟩ => ⟨S600000x128, .f32⟩
  | .hbm, ⟨31, _⟩ => ⟨S600000x128, .f32⟩
  | .hbm, ⟨32, _⟩ => ⟨S600000x128, .f32⟩
  | .hbm, ⟨33, _⟩ => ⟨S128x128, .f32⟩
  | .hbm, ⟨34, _⟩ => ⟨S600000x128, .f32⟩
  | .hbm, ⟨35, _⟩ => ⟨S1x128, .f32⟩
  | .hbm, ⟨36, _⟩ => ⟨S600000x128, .f32⟩
  | .hbm, ⟨37, _⟩ => ⟨S600000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000, .f32⟩
  | .hbm, ⟨55, _⟩ => ⟨S50000x1, .f32⟩
  | .hbm, ⟨56, _⟩ => ⟨S_, .f32⟩
  | .hbm, ⟨57, _⟩ => ⟨S50000x1, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000, .f32⟩
  | .hbm, ⟨64, _⟩ => ⟨S50000x1, .f32⟩
  | .hbm, ⟨65, _⟩ => ⟨S_, .f32⟩
  | .hbm, ⟨66, _⟩ => ⟨S50000x1, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x1, .f32⟩
  | .hbm, ⟨72, _⟩ => ⟨S50000x1, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_1 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Spec.lean ====
/-
  The message-passing layer as plain index-by-index functions on the extended reals, over any number of rows:
  a linear layer `X · W + b`, the filter network `(silu ((R · W0) · W0 + b0)) · W2 + b2` scaled entry by entry by a
  gathered row, and the layer normalisation of `X + A` along a row. Then the one law between the two programs:
  multiplying by the reciprocal square root of a positive quantity is dividing by its square root, and the quantity
  under the root, a mean of squares plus a positive constant, IS positive on the extended reals whatever the row holds.
-/
import Idealize.ShloMosaic.Lib.ValueIdx
import Idealize.ShloMosaic.PureOps.Ideal
import Mathlib.Data.EReal.Inv
import Mathlib.Data.EReal.Operations

noncomputable section

namespace Cert.Spec

open Idealize.ShloMosaic Idealize.ShloMosaic.ValueIdx

/-- `n` rows of 128 entries. -/
abbrev Rows (n : ℕ) : Type := FVec Ideal ⟨2, ![n, 128]⟩ .f32
/-- A 128 × 128 matrix. -/
abbrev Sq : Type := FVec Ideal ⟨2, ![128, 128]⟩ .f32
/-- One row of 128 entries. -/
abbrev Lane : Type := FVec Ideal ⟨1, ![128]⟩ .f32

/-- The word of `128.0`, the row length the means divide by. -/
abbrev c128 : EReal := Ideal.ofBits .f32 0x43000000#32
/-- The word of the small constant added under the root. -/
abbrev ceps : EReal := Ideal.ofBits .f32 0x3727C5AC#32

/-- Rows times a matrix: entry `(r, c)` is `∑ k, X[r, k] · W[k, c]`. -/
def mm {n : ℕ} (X : Rows n) (W : Sq) : Rows n := fun i => ∑ k : Fin 128, X (ix2 (i 0) k) * W (ix2 k (i 1))

/-- A linear layer: the product plus a bias row. -/
def lin {n : ℕ} (X : Rows n) (W : Sq) (b : Lane) : Rows n := fun i => mm X W i + b (ix1 (i 1))

/-- `x · σ(x)` with `σ(x) = 1 / (1 + e^(-x))`. -/
def silu (x : EReal) : EReal := x * Ideal.div 1 (1 + Ideal.exp (-x))

/-- The filter network on each row of `R`, scaled entry by entry by `G`. -/
def filt {n : ℕ} (R : Rows n) (W0 : Sq) (b0 : Lane) (W2 : Sq) (b2 : Lane) (G : Rows n) : Rows n := fun i =>
  lin (fun i' => silu (lin (mm R W0) W0 b0 i')) W2 b2 i * G i

/-- The hidden row `X + A`. -/
def hid {n : ℕ} (X A : Rows n) (r : Fin n) (k : Fin 128) : EReal := X (ix2 r k) + A (ix2 r k)

/-- A row's mean. -/
def mu {n : ℕ} (X A : Rows n) (r : Fin n) : EReal := Ideal.div (∑ k : Fin 128, hid X A r k) c128

/-- A row's entries less its mean. -/
def dev {n : ℕ} (X A : Rows n) (r : Fin n) (k : Fin 128) : EReal := hid X A r k - mu X A r

/-- The mean of the squared deviations, plus the small constant. -/
def vareps {n : ℕ} (X A : Rows n) (r : Fin n) : EReal := Ideal.div (∑ k : Fin 128, dev X A r k * dev X A r k) c128 + ceps

/-- Layer normalisation of `X + A` along each row, with gain `g` and offset `b`. -/
def ln {n : ℕ} (X A : Rows n) (g b : Lane) : Rows n := fun i =>
  dev X A (i 0) (i 1) * Ideal.rsqrt (vareps X A (i 0)) * g (ix1 (i 1)) + b (ix1 (i 1))

/-! ## Rows of an array

Every function above computes row `r` of its result from row `r` of its row arguments, so it commutes with taking a
run of consecutive rows: what a grid point computes from its blocks is the block of the whole array's result. -/

/-- Rows `o, …, o + n' - 1` of an array of `n` rows. -/
def rowsFrom {n n' : ℕ} (o : ℕ) (h : o + n' ≤ n) (X : Rows n) : Rows n' := fun y =>
  X (ix2 ⟨o + (y 0).val, Nat.lt_of_lt_of_le (Nat.add_lt_add_left (idx2_lt0 y) o) h⟩ (y 1))

theorem lin_rowsFrom {n n' : ℕ} (o : ℕ) (h : o + n' ≤ n) (X : Rows n) (W : Sq) (b : Lane) :
    lin (rowsFrom (n' := n') o h X) W b = rowsFrom o h (lin X W b) := rfl

theorem filt_rowsFrom {n n' : ℕ} (o : ℕ) (h : o + n' ≤ n) (R : Rows n) (W0 : Sq) (b0 : Lane) (W2 : Sq) (b2 : Lane) (G : Rows n) :
    filt (rowsFrom (n' := n') o h R) W0 b0 W2 b2 (rowsFrom o h G) = rowsFrom o h (filt R W0 b0 W2 b2 G) := rfl

theorem ln_rowsFrom {n n' : ℕ} (o : ℕ) (h : o + n' ≤ n) (X A : Rows n) (g b : Lane) :
    ln (rowsFrom (n' := n') o h X) (rowsFrom o h A) g b = rowsFrom o h (ln X A g b) := rfl

/-! ## The constants -/

theorem c128_eq : c128 = ((128 : ℝ) : EReal) := by
  simp [c128, Ideal.ofBits, Ideal.ieee, -EReal.coe_mul]; norm_num

theorem ceps_pos : 0 < ceps := by
  have h : ceps = (((2 ^ 23 + 2606508 : ℕ) : ℝ) * (2 : ℝ) ^ ((110 : ℤ) - 127 - 23) : ℝ) := by
    simp [ceps, Ideal.ofBits, Ideal.ieee, -EReal.coe_mul]
  rw [h]
  exact EReal.coe_pos.2 (by positivity)

/-! ## The law -/

/-- A square is never negative on the extended reals. -/
theorem mul_self_nonneg' (x : EReal) : 0 ≤ x * x :=
  EReal.mul_nonneg_iff.2 ((le_total 0 x).imp (fun h => ⟨h, h⟩) (fun h => ⟨h, h⟩))

/-- A mean of squares plus the positive constant is positive. -/
theorem vareps_pos {n : ℕ} (X A : Rows n) (r : Fin n) : 0 < vareps X A r := by
  unfold vareps
  refine ceps_pos.trans_le (le_add_of_nonneg_left ?_)
  have hs : 0 ≤ ∑ k : Fin 128, dev X A r k * dev X A r k := Finset.sum_nonneg fun k _ => mul_self_nonneg' _
  rw [c128_eq]
  unfold Ideal.div
  rw [if_neg (by exact_mod_cast (by norm_num : (128 : ℝ) ≠ 0))]
  refine EReal.mul_nonneg hs ?_
  rw [← EReal.coe_inv]
  exact EReal.coe_nonneg.2 (by norm_num)

/-- Times the reciprocal root of a positive quantity is over its root. -/
theorem mul_rsqrt_eq_div_sqrt (x : EReal) {v : EReal} (hv : 0 < v) : x * Ideal.rsqrt v = Ideal.div x (Ideal.sqrt v) := by
  induction v using EReal.rec with
  | bot => exact absurd hv (by simp)
  | coe r =>
    have hr : 0 < r := EReal.coe_pos.1 hv
    have hs : Real.sqrt r ≠ 0 := (Real.sqrt_pos.2 hr).ne'
    show x * (if r < 0 then (⊥ : EReal) else if r = 0 then (⊤ : EReal) else (((Real.sqrt r)⁻¹ : ℝ) : EReal))
      = Ideal.div x (if r < 0 then (⊥ : EReal) else ((Real.sqrt r : ℝ) : EReal))
    rw [if_neg (not_lt.2 hr.le), if_neg hr.ne', if_neg (not_lt.2 hr.le)]
    unfold Ideal.div
    rw [if_neg (by exact_mod_cast hs), EReal.coe_inv]
  | top =>
    show x * 0 = Ideal.div x ⊤
    unfold Ideal.div
    rw [if_neg (by simp), EReal.inv_top]

end Cert.Spec

end
-- ==== Proof.KernelMatmul.lean ====
/-
  The kernels' one matrix product, read at an index: a block of 5000 rows times a 128 × 128 matrix, accumulated into
  zeros, has at (p, q) the sum over k of the row's entry k times the matrix's entry (k, q). The four coordinate facts
  say which operand coordinate each output or contraction coordinate lands on.
-/
import proofs.«409831_j66666482368669_1_alg».proof.Proof.Gen.KernelIdeal
import Idealize.ShloMosaic.Lib.ValueIdx
import Idealize.ShloMosaic.PureOps.Ideal.Laws

noncomputable section

namespace Cert.KernelIdeal.Hand

open Cert.KernelIdeal Idealize.ShloMosaic Idealize.ShloMosaic.ValueIdx

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at (p, q): the row p of the left operand against the column q of the right one. -/
theorem matmul_rows_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

end Cert.KernelIdeal.Hand

end
-- ==== Proof.WxhValue.lean ====
/-
  The first kernel's result array. Its body computes, from a block of 5000 rows of `x`, the whole transposed weight
  and the bias, the linear layer on that block; point `t` of its grid reads and writes rows `5000 t … 5000 t + 4999`,
  and the ten blocks tile the 50000 rows, so the array the region leaves is the linear layer of the whole `x`.
-/
import proofs.«409831_j66666482368669_1_alg».proof.Proof.Gen.KernelIdeal.Frame
import proofs.«409831_j66666482368669_1_alg».proof.Proof.Spec
import proofs.«409831_j66666482368669_1_alg».proof.Proof.KernelMatmul
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The body's stored value is the linear layer of its loaded blocks: the product into zeros is the plain sum, the
    changes of float format are the identity, and the bias row is repeated down the rows. -/
theorem pay0_eq (x : Vec Ideal S5000x128 .f32) (w : Vec Ideal S128x128 .f32) (b : Vec Ideal S128 .f32) :
    k0_pay1 (F := Ideal) x w b = Spec.lin x w b := by
  funext j
  obtain ⟨p, q, rfl⟩ : ∃ (p : Fin 5000) (q : Fin 128), j = ix2 p q := ⟨j 0, j 1, eq_ix2 j⟩
  unfold k0_pay1
  show matmul (F := Ideal) dot_S5000x128_S128x128_S5000x128_1_0_0_1_n_n none (truncf (F := Ideal) .bf16 x bitsLt_bf16_f32) (truncf (F := Ideal) .bf16 (shapeCast S128x128 w shapeCasts_S128x128_S128x128) bitsLt_bf16_f32) (constant S5000x128 .f32 0x00000000#32) (ix2 p q)
      + broadcastTo S5000x128 (shapeCast S1x128 b shapeCasts_S128_S1x128) broadcasts_S1x128_S5000x128 (ix2 p q) = _
  rw [matmul_rows_apply, broadcastTo_1b_ab_apply, shapeCast_a_1a_apply, shapeCast_self]
  rfl

/-- The index maps over the grid: the row windows move with the point, the others stay at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

theorem rows0 (t : Fin cfg0.N) : 5000 * t.val + 5000 ≤ 50000 := by
  have h : t.val < grid0.N := t.isLt
  rw [N_0] at h
  omega

variable (V : (c : Dev nD) → (b : Ref sig .tc) → Buf (Elt Ideal) ((c : Thread nD τ).loc b))

/-- The block of `x` at point `t` is rows `5000 t …` of `x`. -/
theorem iblk0_0_eq (c : Dev nD) (t : Fin cfg0.N) :
    (iblk0 V c 0 t : Vec Ideal S5000x128 .f32) = Spec.rowsFrom (5000 * t.val) (rows0 t) (V c main_arg0) := by
  obtain ⟨e0, e1, -⟩ := idx0 t
  funext y
  show V c main_arg0 (((cfg0.win 0).blk t).view.emb y) = V c main_arg0 (ix2 ⟨5000 * t.val + (y 0).val, _⟩ (y 1))
  refine congrArg (V c main_arg0) (funext fun a => Fin.ext ?_)
  match a with
  | ⟨0, _⟩ => show win0_0.index t (0 : Fin 2) * 5000 + 1 * (y 0).val = 5000 * t.val + (y 0).val; omega
  | ⟨1, _⟩ => show win0_0.index t (1 : Fin 2) * 128 + 1 * (y 1).val = (y 1).val; omega

/-- The weight window's block is the whole transposed weight at every point. -/
theorem iblk0_1_eq (c : Dev nD) (t : Fin cfg0.N) : (iblk0 V c 1 t : Vec Ideal S128x128 .f32) = V c main_v0 := by
  obtain ⟨-, -, e2, e3, -⟩ := idx0 t
  funext y
  show V c main_v0 (((cfg0.win 1).blk t).view.emb y) = V c main_v0 y
  refine congrArg (V c main_v0) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias window's block is the whole bias at every point. -/
theorem iblk0_2_eq (c : Dev nD) (t : Fin cfg0.N) : (iblk0 V c 2 t : Vec Ideal S128 .f32) = V c main_arg5 := by
  obtain ⟨-, -, -, -, e4, -⟩ := idx0 t
  funext y
  show V c main_arg5 (((cfg0.win 2).blk t).view.emb y) = V c main_arg5 y
  refine congrArg (V c main_arg5) (funext fun a => Fin.ext ?_)
  match a with
  | ⟨0, _⟩ => show win0_2.index t (0 : Fin 1) * 128 + 1 * (y 0).val = (y 0).val; omega

/-- Reading an array through the result window's block at point `t` takes its rows `5000 t …`. -/
theorem read0_3_eq (t : Fin cfg0.N) (G : Spec.Rows 50000) :
    ((cfg0.win 3).blk t).view.read (Elt Ideal) G = Spec.rowsFrom (5000 * t.val) (rows0 t) G := by
  obtain ⟨-, -, -, -, -, e5, e6⟩ := idx0 t
  funext y
  show G (((cfg0.win 3).blk t).view.emb y) = G (ix2 ⟨5000 * t.val + (y 0).val, _⟩ (y 1))
  refine congrArg G (funext fun a => Fin.ext ?_)
  match a with
  | ⟨0, _⟩ => show win0_3.index t (0 : Fin 2) * 5000 + 1 * (y 0).val = 5000 * t.val + (y 0).val; omega
  | ⟨1, _⟩ => show win0_3.index t (1 : Fin 2) * 128 + 1 * (y 1).val = (y 1).val; omega

/-- What point `t` writes back is block `t` of the linear layer of the arrays the region was entered with. -/
theorem flushed0 (c : Dev nD) (t : Fin cfg0.N) :
    (dat0 V c).flushed 3 t = ((cfg0.win 3).blk t).view.read (Elt Ideal) (Spec.lin (V c main_arg0) (V c main_v0) (V c main_arg5)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  rw [read0_3_eq, ← Spec.lin_rowsFrom, ← iblk0_0_eq V c t]
  funext j
  refine (congrFun (pay0_eq (iblk0 V c 0 t) (iblk0 V c 1 t) (iblk0 V c 2 t)) j).trans ?_
  rw [iblk0_1_eq V c t, iblk0_2_eq V c t]

/-- An index of the result array is in point `t`'s block iff each coordinate is in the block's range. -/
theorem mem_blk0_3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v3).slice (win0_3.rect t)).set ↔ _
  rw [View.set_slice_whole, Rect.mem_set_unit]
  exact Iff.rfl

/-- Every row lies in the block of the point `row / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < cfg0.N := by rw [show cfg0.N = 10 from N_0]; omega
  obtain ⟨-, -, -, -, -, e5, e6⟩ := idx0 ⟨(i 0).val / 5000, ht⟩
  refine ⟨⟨(i 0).val / 5000, ht⟩, flush0_3 _, ?_⟩
  rw [mem_blk0_3]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    omega

/-- The array the first region leaves: the linear layer of the arrays it was entered with. -/
theorem final0 (c : Dev nD) : (dat0 V c).arrAt 3 cfg0.N = Spec.lin (V c main_arg0) (V c main_v0) (V c main_arg5) :=
  (dat0 V c).arrAt_eq_of_cover 3 _ (fun t _ => flushed0 V c t) cover0

end Cert.KernelIdeal.Hand

end
-- ==== Proof.FilterValue.lean ====
/-
  The second kernel's result array. From a block of 5000 rows of `rbf`, the same rows of the gathered array, the two
  transposed weights and the two biases, its body computes the filter network on the block, scaled entry by entry by
  the gathered rows; point `t` of its 120 points reads and writes rows `5000 t … 5000 t + 4999` of the 600000, so the
  array the region leaves is the filter network of the whole arrays.
-/
import proofs.«409831_j66666482368669_1_alg».proof.Proof.Gen.KernelIdeal.Frame
import proofs.«409831_j66666482368669_1_alg».proof.Proof.Spec
import proofs.«409831_j66666482368669_1_alg».proof.Proof.KernelMatmul
import proofs.«409831_j66666482368669_1_alg».proof.Proof.WxhValue
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-- The logistic function entry by entry: `1 / (1 + e^(-x))`. -/
theorem logistic_apply {s : Shape} {φ : FTy} (a : FVec Ideal s φ) (i : s.Idx) :
    logistic a i = Ideal.div 1 (1 + Ideal.exp (-(a i))) := rfl

/-- The body's stored value is the filter network of its loaded blocks: each product into zeros is the plain sum, the
    changes of float format are the identity, each bias row is repeated down the rows, and `x · logistic x` is `silu x`. -/
theorem pay1_eq (r : Vec Ideal S5000x128 .f32) (w0 : Vec Ideal S128x128 .f32) (b0 : Vec Ideal S128 .f32)
    (w2 : Vec Ideal S128x128 .f32) (b2 : Vec Ideal S128 .f32) (g : Vec Ideal S5000x128 .f32) :
    k1_pay1 (F := Ideal) r w0 b0 w2 b2 g = Spec.filt r w0 b0 w2 b2 g := by
  funext j
  obtain ⟨p, q, rfl⟩ : ∃ (p : Fin 5000) (q : Fin 128), j = ix2 p q := ⟨j 0, j 1, eq_ix2 j⟩
  unfold k1_pay1
  simp only [mulf_apply, addf_apply, truncf_apply, logistic_apply, matmul_rows_apply, broadcastTo_1b_ab_apply,
    shapeCast_a_1a_apply, shapeCast_self]
  rfl

/-- The index maps over the grid: the row windows move with the point, the others stay at the origin. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem rows1 (t : Fin cfg1.N) : 5000 * t.val + 5000 ≤ 600000 := by
  have h : t.val < grid1.N := t.isLt
  rw [N_1] at h
  omega

variable (V : (c : Dev nD) → (b : Ref sig .tc) → Buf (Elt Ideal) ((c : Thread nD τ).loc b))

/-- The block of `rbf` at point `t` is rows `5000 t …` of `rbf`. -/
theorem iblk1_0_eq (c : Dev nD) (t : Fin cfg1.N) :
    (iblk1 V c 0 t : Vec Ideal S5000x128 .f32) = Spec.rowsFrom (5000 * t.val) (rows1 t) (V c main_arg3) := by
  obtain ⟨e0, e1, -⟩ := idx1 t
  funext y
  show V c main_arg3 (((cfg1.win 0).blk t).view.emb y) = V c main_arg3 (ix2 ⟨5000 * t.val + (y 0).val, _⟩ (y 1))
  refine congrArg (V c main_arg3) (funext fun a => Fin.ext ?_)
  match a with
  | ⟨0, _⟩ => show win1_0.index t (0 : Fin 2) * 5000 + 1 * (y 0).val = 5000 * t.val + (y 0).val; omega
  | ⟨1, _⟩ => show win1_0.index t (1 : Fin 2) * 128 + 1 * (y 1).val = (y 1).val; omega

/-- The block of the gathered array at point `t` is its rows `5000 t …`. -/
theorem iblk1_1_eq (c : Dev nD) (t : Fin cfg1.N) :
    (iblk1 V c 1 t : Vec Ideal S5000x128 .f32) = Spec.rowsFrom (5000 * t.val) (rows1 t) (V c main_v4) := by
  obtain ⟨-, -, e0, e1, -⟩ := idx1 t
  funext y
  show V c main_v4 (((cfg1.win 1).blk t).view.emb y) = V c main_v4 (ix2 ⟨5000 * t.val + (y 0).val, _⟩ (y 1))
  refine congrArg (V c main_v4) (funext fun a => Fin.ext ?_)
  match a with
  | ⟨0, _⟩ => show win1_1.index t (0 : Fin 2) * 5000 + 1 * (y 0).val = 5000 * t.val + (y 0).val; omega
  | ⟨1, _⟩ => show win1_1.index t (1 : Fin 2) * 128 + 1 * (y 1).val = (y 1).val; omega

/-- The first weight window's block is the whole transposed weight at every point. -/
theorem iblk1_2_eq (c : Dev nD) (t : Fin cfg1.N) : (iblk1 V c 2 t : Vec Ideal S128x128 .f32) = V c main_v1 := by
  obtain ⟨-, -, -, -, e0, e1, -⟩ := idx1 t
  funext y
  show V c main_v1 (((cfg1.win 2).blk t).view.emb y) = V c main_v1 y
  refine congrArg (V c main_v1) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias window's block is the whole bias at every point. -/
theorem iblk1_3_eq (c : Dev nD) (t : Fin cfg1.N) : (iblk1 V c 3 t : Vec Ideal S128 .f32) = V c main_arg7 := by
  obtain ⟨-, -, -, -, -, -, e0, -⟩ := idx1 t
  funext y
  show V c main_arg7 (((cfg1.win 3).blk t).view.emb y) = V c main_arg7 y
  refine congrArg (V c main_arg7) (funext fun a => Fin.ext ?_)
  match a with
  | ⟨0, _⟩ => show win1_3.index t (0 : Fin 1) * 128 + 1 * (y 0).val = (y 0).val; omega

/-- The second weight window's block is the whole transposed weight at every point. -/
theorem iblk1_4_eq (c : Dev nD) (t : Fin cfg1.N) : (iblk1 V c 4 t : Vec Ideal S128x128 .f32) = V c main_v2 := by
  obtain ⟨-, -, -, -, -, -, -, e0, e1, -⟩ := idx1 t
  funext y
  show V c main_v2 (((cfg1.win 4).blk t).view.emb y) = V c main_v2 y
  refine congrArg (V c main_v2) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias window's block is the whole bias at every point. -/
theorem iblk1_5_eq (c : Dev nD) (t : Fin cfg1.N) : (iblk1 V c 5 t : Vec Ideal S128 .f32) = V c main_arg9 := by
  obtain ⟨-, -, -, -, -, -, -, -, -, e0, -⟩ := idx1 t
  funext y
  show V c main_arg9 (((cfg1.win 5).blk t).view.emb y) = V c main_arg9 y
  refine congrArg (V c main_arg9) (funext fun a => Fin.ext ?_)
  match a with
  | ⟨0, _⟩ => show win1_5.index t (0 : Fin 1) * 128 + 1 * (y 0).val = (y 0).val; omega

/-- Reading an array through the result window's block at point `t` takes its rows `5000 t …`. -/
theorem read1_6_eq (t : Fin cfg1.N) (G : Spec.Rows 600000) :
    ((cfg1.win 6).blk t).view.read (Elt Ideal) G = Spec.rowsFrom (5000 * t.val) (rows1 t) G := by
  obtain ⟨-, -, -, -, -, -, -, -, -, -, e0, e1⟩ := idx1 t
  funext y
  show G (((cfg1.win 6).blk t).view.emb y) = G (ix2 ⟨5000 * t.val + (y 0).val, _⟩ (y 1))
  refine congrArg G (funext fun a => Fin.ext ?_)
  match a with
  | ⟨0, _⟩ => show win1_6.index t (0 : Fin 2) * 5000 + 1 * (y 0).val = 5000 * t.val + (y 0).val; omega
  | ⟨1, _⟩ => show win1_6.index t (1 : Fin 2) * 128 + 1 * (y 1).val = (y 1).val; omega

/-- What point `t` writes back is block `t` of the filter network of the arrays the region was entered with. -/
theorem flushed1 (c : Dev nD) (t : Fin cfg1.N) :
    (dat1 V c).flushed 6 t = ((cfg1.win 6).blk t).view.read (Elt Ideal)
      (Spec.filt (V c main_arg3) (V c main_v1) (V c main_arg7) (V c main_v2) (V c main_arg9) (V c main_v4)) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S128) hz1]
  rw [read1_6_eq, ← Spec.filt_rowsFrom, ← iblk1_0_eq V c t, ← iblk1_1_eq V c t]
  funext j
  refine (congrFun (pay1_eq (iblk1 V c 0 t) (iblk1 V c 2 t) (iblk1 V c 3 t) (iblk1 V c 4 t) (iblk1 V c 5 t) (iblk1 V c 1 t)) j).trans ?_
  rw [iblk1_2_eq V c t, iblk1_3_eq V c t, iblk1_4_eq V c t, iblk1_5_eq V c t]

/-- An index of the result array is in point `t`'s block iff each coordinate is in the block's range. -/
theorem mem_blk1_6 (t : Fin cfg1.N) (i : S600000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v5).slice (win1_6.rect t)).set ↔ _
  rw [View.set_slice_whole, Rect.mem_set_unit]
  exact Iff.rfl

/-- Every row lies in the block of the point `row / 5000`. -/
theorem cover1 (i : S600000x128.Idx) : ∃ t : Fin cfg1.N, (cfg1.win 6).flush t = true ∧ i ∈ ((cfg1.win 6).blk t).view.set := by
  have hi0 : (i 0).val < 600000 := (i 0).isLt
  have hi1 : (i 1).val < 128 := (i 1).isLt
  have ht : (i 0).val / 5000 < cfg1.N := by rw [show cfg1.N = 120 from N_1]; omega
  obtain ⟨-, -, -, -, -, -, -, -, -, -, e0, e1⟩ := idx1 ⟨(i 0).val / 5000, ht⟩
  refine ⟨⟨(i 0).val / 5000, ht⟩, flush1_6 _, ?_⟩
  rw [mem_blk1_6]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    omega

/-- The array the second region leaves: the filter network of the arrays it was entered with. -/
theorem final1 (c : Dev nD) : (dat1 V c).arrAt 6 cfg1.N
    = Spec.filt (V c main_arg3) (V c main_v1) (V c main_arg7) (V c main_v2) (V c main_arg9) (V c main_v4) :=
  (dat1 V c).arrAt_eq_of_cover 6 _ (fun t _ => flushed1 V c t) cover1

end Cert.KernelIdeal.Hand

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.NormValue.lean ====
/-
  The third kernel's result array. From a block of 5000 rows of `x`, the same rows of the scattered sums, the gain and
  the offset, its body normalises each row of `x + agg`: the row's mean, the deviations from it, the mean of their
  squares plus the small constant, the reciprocal root of that, times the gain, plus the offset. Point `t` of its ten
  points reads and writes rows `5000 t … 5000 t + 4999`, so the array the region leaves is the normalisation of the
  whole arrays.
-/
import proofs.«409831_j66666482368669_1_alg».proof.Proof.Gen.KernelIdeal.Frame
import proofs.«409831_j66666482368669_1_alg».proof.Proof.Spec
import proofs.«409831_j66666482368669_1_alg».proof.Proof.LibLayout
import proofs.«409831_j66666482368669_1_alg».proof.Proof.WxhValue
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-- The reciprocal root entry by entry. -/
theorem rsqrt_apply {s : Shape} {φ : FTy} (a : FVec Ideal s φ) (i : s.Idx) : rsqrt a i = Ideal.rsqrt (a i) := rfl

/-- A block's sum along the row, from zero: at row `p` the sum over the 128 columns. -/
theorem rowSum_apply (src : FVec Ideal S5000x128 .f32) (p : Fin 5000) :
    multiReduction (F := Ideal) .add [1] S5000 src 0x00000000#32 reduces_S5000x128_S5000 (.inl rfl) rfl (ix1 p)
      = ∑ k : Fin 128, src (ix2 p k) := by
  refine (Ideal.multiReduction_add_single src 0x00000000#32 reduces_S5000x128_S5000 (.inl rfl) rfl (ix1 p)).trans ?_
  refine Finset.sum_congr rfl fun k _ => congrArg src (funext fun a => Fin.ext ?_)
  match a with
  | ⟨0, _⟩ => rfl
  | ⟨1, _⟩ => rfl

/-- The body's arithmetic with the sum along the row as a parameter `rs`: the hidden block `x + a`, its row means, the
    deviations, the means of their squares plus the small constant, the reciprocal root, the gain and the offset. -/
def normWith (rs : FVec Ideal S5000x128 .f32 → FVec Ideal S5000 .f32) (x a : Vec Ideal S5000x128 .f32)
    (g b : Vec Ideal S128 .f32) : FVec Ideal S5000x128 .f32 :=
  have h : FVec Ideal S5000x128 .f32 := addf x (shapeCast S5000x128 a shapeCasts_S5000x128_S5000x128)
  have mean : FVec Ideal S5000x1 .f32 :=
    divf (shapeCast S5000x1 (rs h) shapeCasts_S5000_S5000x1) (broadcast S5000x1 (Scalar.ofBits .f32 0x43000000#32))
  have d : FVec Ideal S5000x128 .f32 := subf h (broadcastTo S5000x128 mean broadcasts_S5000x1_S5000x128)
  have v : FVec Ideal S5000x1 .f32 :=
    addf (divf (shapeCast S5000x1 (rs (mulf d d)) shapeCasts_S5000_S5000x1) (broadcast S5000x1 (Scalar.ofBits .f32 0x43000000#32)))
      (broadcast S5000x1 (Scalar.ofBits .f32 0x3727C5AC#32))
  addf (mulf (mulf d (broadcastTo S5000x128 (rsqrt v) broadcasts_S5000x1_S5000x128))
      (broadcastTo S5000x128 (shapeCast S1x128 g shapeCasts_S128_S1x128) broadcasts_S1x128_S5000x128))
    (broadcastTo S5000x128 (shapeCast S1x128 b shapeCasts_S128_S1x128) broadcasts_S1x128_S5000x128)

/-- The printed body is that arithmetic with the row sum taken from zero. -/
theorem k2_pay1_eq_normWith (x a : Vec Ideal S5000x128 .f32) (g b : Vec Ideal S128 .f32) :
    k2_pay1 (F := Ideal) x a g b
      = normWith (fun s => multiReduction (F := Ideal) .add [1] S5000 s 0x00000000#32 reduces_S5000x128_S5000 (.inl rfl) rfl) x a g b := rfl

/-- With any row sum that is the sum over the 128 columns, the arithmetic is the layer normalisation. -/
theorem normWith_eq (rs : FVec Ideal S5000x128 .f32 → FVec Ideal S5000 .f32)
    (hrs : ∀ (s : FVec Ideal S5000x128 .f32) (p : Fin 5000), rs s (ix1 p) = ∑ k : Fin 128, s (ix2 p k))
    (x a : Vec Ideal S5000x128 .f32) (g b : Vec Ideal S128 .f32) : normWith rs x a g b = Spec.ln x a g b := by
  funext j
  obtain ⟨p, q, rfl⟩ : ∃ (p : Fin 5000) (q : Fin 128), j = ix2 p q := ⟨j 0, j 1, eq_ix2 j⟩
  unfold normWith
  simp only [addf_apply, mulf_apply, subf_apply, divf_apply, rsqrt_apply, broadcast_apply, broadcastTo_1b_ab_apply,
    shapeCast_a_1a_apply, Cert.LibLayout.broadcastTo_a1_ab_apply, Cert.LibLayout.shapeCast_a_a1_apply, shapeCast_self, hrs]
  rfl

/-- The body's stored value is the layer normalisation of its loaded blocks. -/
theorem pay2_eq (x a : Vec Ideal S5000x128 .f32) (g b : Vec Ideal S128 .f32) :
    k2_pay1 (F := Ideal) x a g b = Spec.ln x a g b :=
  (k2_pay1_eq_normWith x a g b).trans (normWith_eq _ (fun s p => rowSum_apply s p) x a g b)

/-- The index maps over the grid: the row windows move with the point, the others stay at the origin. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 1) = 0
    ∧ win2_4.index t (0 : Fin 2) = t.val ∧ win2_4.index t (1 : Fin 2) = 0 :=
  (by decide +kernel : ∀ t : Fin grid2.N, _)

theorem rows2 (t : Fin cfg2.N) : 5000 * t.val + 5000 ≤ 50000 := by
  have h : t.val < grid2.N := t.isLt
  rw [N_2] at h
  omega

variable (V : (c : Dev nD) → (b : Ref sig .tc) → Buf (Elt Ideal) ((c : Thread nD τ).loc b))

/-- The block of `x` at point `t` is rows `5000 t …` of `x`. -/
theorem iblk2_0_eq (c : Dev nD) (t : Fin cfg2.N) :
    (iblk2 V c 0 t : Vec Ideal S5000x128 .f32) = Spec.rowsFrom (5000 * t.val) (rows2 t) (V c main_arg0) := by
  obtain ⟨e0, e1, -⟩ := idx2 t
  funext y
  show V c main_arg0 (((cfg2.win 0).blk t).view.emb y) = V c main_arg0 (ix2 ⟨5000 * t.val + (y 0).val, _⟩ (y 1))
  refine congrArg (V c main_arg0) (funext fun a => Fin.ext ?_)
  match a with
  | ⟨0, _⟩ => show win2_0.index t (0 : Fin 2) * 5000 + 1 * (y 0).val = 5000 * t.val + (y 0).val; omega
  | ⟨1, _⟩ => show win2_0.index t (1 : Fin 2) * 128 + 1 * (y 1).val = (y 1).val; omega

/-- The block of the scattered sums at point `t` is their rows `5000 t …`. -/
theorem iblk2_1_eq (c : Dev nD) (t : Fin cfg2.N) :
    (iblk2 V c 1 t : Vec Ideal S5000x128 .f32) = Spec.rowsFrom (5000 * t.val) (rows2 t) (V c main_v8) := by
  obtain ⟨-, -, e0, e1, -⟩ := idx2 t
  funext y
  show V c main_v8 (((cfg2.win 1).blk t).view.emb y) = V c main_v8 (ix2 ⟨5000 * t.val + (y 0).val, _⟩ (y 1))
  refine congrArg (V c main_v8) (funext fun a => Fin.ext ?_)
  match a with
  | ⟨0, _⟩ => show win2_1.index t (0 : Fin 2) * 5000 + 1 * (y 0).val = 5000 * t.val + (y 0).val; omega
  | ⟨1, _⟩ => show win2_1.index t (1 : Fin 2) * 128 + 1 * (y 1).val = (y 1).val; omega

/-- The gain window's block is the whole gain at every point. -/
theorem iblk2_2_eq (c : Dev nD) (t : Fin cfg2.N) : (iblk2 V c 2 t : Vec Ideal S128 .f32) = V c main_arg10 := by
  obtain ⟨-, -, -, -, e0, -⟩ := idx2 t
  funext y
  show V c main_arg10 (((cfg2.win 2).blk t).view.emb y) = V c main_arg10 y
  refine congrArg (V c main_arg10) (funext fun a => Fin.ext ?_)
  match a with
  | ⟨0, _⟩ => show win2_2.index t (0 : Fin 1) * 128 + 1 * (y 0).val = (y 0).val; omega

/-- The offset window's block is the whole offset at every point. -/
theorem iblk2_3_eq (c : Dev nD) (t : Fin cfg2.N) : (iblk2 V c 3 t : Vec Ideal S128 .f32) = V c main_arg11 := by
  obtain ⟨-, -, -, -, -, e0, -⟩ := idx2 t
  funext y
  show V c main_arg11 (((cfg2.win 3).blk t).view.emb y) = V c main_arg11 y
  refine congrArg (V c main_arg11) (funext fun a => Fin.ext ?_)
  match a with
  | ⟨0, _⟩ => show win2_3.index t (0 : Fin 1) * 128 + 1 * (y 0).val = (y 0).val; omega

/-- Reading an array through the result window's block at point `t` takes its rows `5000 t …`. -/
theorem read2_4_eq (t : Fin cfg2.N) (G : Spec.Rows 50000) :
    ((cfg2.win 4).blk t).view.read (Elt Ideal) G = Spec.rowsFrom (5000 * t.val) (rows2 t) G := by
  obtain ⟨-, -, -, -, -, -, e0, e1⟩ := idx2 t
  funext y
  show G (((cfg2.win 4).blk t).view.emb y) = G (ix2 ⟨5000 * t.val + (y 0).val, _⟩ (y 1))
  refine congrArg G (funext fun a => Fin.ext ?_)
  match a with
  | ⟨0, _⟩ => show win2_4.index t (0 : Fin 2) * 5000 + 1 * (y 0).val = 5000 * t.val + (y 0).val; omega
  | ⟨1, _⟩ => show win2_4.index t (1 : Fin 2) * 128 + 1 * (y 1).val = (y 1).val; omega

/-- What point `t` writes back is block `t` of the normalisation of the arrays the region was entered with. -/
theorem flushed2 (c : Dev nD) (t : Fin cfg2.N) :
    (dat2 V c).flushed 4 t = ((cfg2.win 4).blk t).view.read (Elt Ideal)
      (Spec.ln (V c main_arg0) (V c main_v8) (V c main_arg10) (V c main_arg11)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S128) hz1]
  rw [read2_4_eq, ← Spec.ln_rowsFrom, ← iblk2_0_eq V c t, ← iblk2_1_eq V c t]
  funext j
  refine (congrFun (pay2_eq (iblk2 V c 0 t) (iblk2 V c 1 t) (iblk2 V c 2 t) (iblk2 V c 3 t)) j).trans ?_
  rw [iblk2_2_eq V c t, iblk2_3_eq V c t]

/-- An index of the result array is in point `t`'s block iff each coordinate is in the block's range. -/
theorem mem_blk2_4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v9).slice (win2_4.rect t)).set ↔ _
  rw [View.set_slice_whole, Rect.mem_set_unit]
  exact Iff.rfl

/-- Every row lies in the block of the point `row / 5000`. -/
theorem cover2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have ht : (i 0).val / 5000 < cfg2.N := by rw [show cfg2.N = 10 from N_2]; omega
  obtain ⟨-, -, -, -, -, -, e0, e1⟩ := idx2 ⟨(i 0).val / 5000, ht⟩
  refine ⟨⟨(i 0).val / 5000, ht⟩, flush2_4 _, ?_⟩
  rw [mem_blk2_4]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ (1 : Fin 2) * 128 ≤ (i 1).val ∧ (i 1).val < win2_4.index ⟨(i 0).val / 5000, ht⟩ (1 : Fin 2) * 128 + 128
    omega

/-- The array the third region leaves: the normalisation of the arrays it was entered with. -/
theorem final2 (c : Dev nD) : (dat2 V c).arrAt 4 cfg2.N
    = Spec.ln (V c main_arg0) (V c main_v8) (V c main_arg10) (V c main_arg11) :=
  (dat2 V c).arrAt_eq_of_cover 4 _ (fun t _ => flushed2 V c t) cover2

end Cert.KernelIdeal.Hand

end
-- ==== Proof.HostTerms.lean ====
/-
  The host operations between the three kernels, as named functions of their operands: a weight transposed; the row
  indices made a column, a negative one first moved up by the row count; the test that a wrapped index lies in range;
  the plain gather of rows; `take` with fill, which puts the not-a-number word where the index is out of range; and the
  scatter-add of rows into a zero array.
-/
import proofs.«409831_j66666482368669_1_alg».proof.Proof.Gen.KernelIdeal

noncomputable section

namespace Cert.KernelIdeal.Hand

open Cert.KernelIdeal Cert.KernelIdeal.Facts₀ Cert.KernelIdeal.Facts Idealize.ShloMosaic

section Terms

variable {F : FTy → Type} [FloatOps F]

/-- A weight matrix transposed. -/
def tr (w : FVec F S128x128 .f32) : FVec F S128x128 .f32 := transpose S128x128 [1, 0] w transposes_S128x128_S128x128_1_0

/-- The row indices as a column, a negative one first moved up by the row count 50000. -/
def wrapIdx (j : IVec S600000 32) : IVec S600000x1 32 :=
  broadcastInDim S600000x1 ![0] bcast_S600000_S600000x1_0
    (select (cmpi .slt j (broadcastInDim S600000 ![] bcast_S_S600000 (constantI S_ 32 0#32)))
      (addi j (broadcastInDim S600000 ![] bcast_S_S600000 (constantI S_ 32 50000#32))) j)

/-- For each entry of the taken array, whether its row's index lies in `0 … 49999`. -/
def inRange (w : IVec S600000x1 32) : IVec S600000x128 1 :=
  broadcastInDim S600000x128 ![0] bcast_S600000_S600000x128_0
    (Host.reduce IntOp.andi
      (andi (cmpi .sge w (broadcastInDim S600000x1 ![] bcast_S_S600000x1 (constantI S_ 32 0#32)))
        (cmpi .sle w (broadcastInDim S600000x1 ![0, 1] bcast_S1x1_S600000x1_0_1
          (broadcastInDim S1x1 ![1] bcast_S1_S1x1_1 (constantI S1 32 49999#32)))))
      (constantI S_ 1 1#1) reducesTo_S600000x1_S600000_d1 h_S_)

/-- The rows of `x` at a column of indices. -/
def gatherRows (x : FVec F S50000x128 .f32) (w : IVec S600000x1 32) : FVec F S600000x128 .f32 :=
  Host.gather gather_S50000x128_S600000x1_S600000x128_1_0_n_n_0_1_1128 x w

/-- `take` with fill: the gathered rows where the index is in range, the not-a-number word elsewhere. -/
def takeRows (x : FVec F S50000x128 .f32) (j : IVec S600000 32) : FVec F S600000x128 .f32 :=
  select (inRange (wrapIdx j)) (gatherRows x (wrapIdx j))
    (broadcastInDim S600000x128 ![] bcast_S_S600000x128 (constant S_ .f32 0x7FC00000#32))

/-- The rows `u` added into rows `i` of a zero array. -/
def scatterRows (i : IVec S600000 32) (u : FVec F S600000x128 .f32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 i) u

end Terms

end Cert.KernelIdeal.Hand

end
-- ==== Proof.HostValues.lean ====
/-
  The host operations around the three kernels, and the program's result read back to the arguments. Between the
  kernels the host transposes the three weights, takes the rows `Wxh[j]` (negative indices wrapped by the row count,
  rows whose wrapped index is out of range filled with the not-a-number word), and scatter-adds the messages into
  rows `i` of a zero array. Chaining the three kernels' arrays through these gives the result array as one term of the
  argument arrays.
-/
import proofs.«409831_j66666482368669_1_alg».proof.Proof.Gen.KernelIdeal.Frame
import proofs.«409831_j66666482368669_1_alg».proof.Proof.WxhValue
import proofs.«409831_j66666482368669_1_alg».proof.Proof.FilterValue
import proofs.«409831_j66666482368669_1_alg».proof.Proof.NormValue
import proofs.«409831_j66666482368669_1_alg».proof.Proof.HostTerms
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

/-- The node features through the linear layer. -/
def wxhOf (x : FVec Ideal S50000x128 .f32) (Wl : FVec Ideal S128x128 .f32) (bl : FVec Ideal S128 .f32) : FVec Ideal S50000x128 .f32 :=
  Spec.lin x (tr Wl) bl

/-- The messages: the filter network of the edge features, scaled by the taken rows of the linear layer. -/
def msgOf (x : FVec Ideal S50000x128 .f32) (j : IVec S600000 32) (rbf : FVec Ideal S600000x128 .f32)
    (Wl : FVec Ideal S128x128 .f32) (bl : FVec Ideal S128 .f32) (W0 : FVec Ideal S128x128 .f32) (b0 : FVec Ideal S128 .f32)
    (W2 : FVec Ideal S128x128 .f32) (b2 : FVec Ideal S128 .f32) : FVec Ideal S600000x128 .f32 :=
  Spec.filt rbf (tr W0) b0 (tr W2) b2 (takeRows (wxhOf x Wl bl) j)

/-- The layer's output: the normalisation of `x` plus the messages scattered into rows `i`. -/
def outOf (x : FVec Ideal S50000x128 .f32) (i j : IVec S600000 32) (rbf : FVec Ideal S600000x128 .f32)
    (Wl : FVec Ideal S128x128 .f32) (bl : FVec Ideal S128 .f32) (W0 : FVec Ideal S128x128 .f32) (b0 : FVec Ideal S128 .f32)
    (W2 : FVec Ideal S128x128 .f32) (b2 g b : FVec Ideal S128 .f32) : FVec Ideal S50000x128 .f32 :=
  Spec.ln x (scatterRows i (msgOf x j rbf Wl bl W0 b0 W2 b2)) g b

variable (m : (ℓ : Loc nD τ sig) → Buf (Elt Ideal) ℓ) (ρ : Dev nD → PrngReg)

/-! ## Before the first kernel -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W1_arg11 (c : Dev nD) : W1 m ρ c (Proc.devRef .tc main_arg11) = m ((c : Thread nD τ).loc main_arg11) := by
  show StableHlo.after hostOps0 (W0 m ρ c) (Proc.devRef .tc main_arg11) = _
  after_results
theorem W1_v0 (c : Dev nD) : W1 m ρ c (Proc.devRef .tc main_v0) = tr (F := Ideal) (m ((c : Thread nD τ).loc main_arg4)) := by
  show StableHlo.after hostOps0 (W0 m ρ c) (Proc.devRef .tc main_v0) = _
  unfold tr
  after_results
theorem W1_v1 (c : Dev nD) : W1 m ρ c (Proc.devRef .tc main_v1) = tr (F := Ideal) (m ((c : Thread nD τ).loc main_arg6)) := by
  show StableHlo.after hostOps0 (W0 m ρ c) (Proc.devRef .tc main_v1) = _
  unfold tr
  after_results
theorem W1_v2 (c : Dev nD) : W1 m ρ c (Proc.devRef .tc main_v2) = tr (F := Ideal) (m ((c : Thread nD τ).loc main_arg8)) := by
  show StableHlo.after hostOps0 (W0 m ρ c) (Proc.devRef .tc main_v2) = _
  unfold tr
  after_results

/-! ## After the first kernel -/

/-- The first kernel's array: the linear layer of `x` with the transposed weight and the bias. -/
theorem W2_v3 (c : Dev nD) : W2 m ρ c (Proc.devRef .tc main_v3)
    = wxhOf (m ((c : Thread nD τ).loc main_arg0)) (m ((c : Thread nD τ).loc main_arg4)) (m ((c : Thread nD τ).loc main_arg5)) := by
  unfold wxhOf
  refine (W2_arr m ρ c 3).trans ((final0 (V1 m ρ) c).trans ?_)
  show Spec.lin (W1 m ρ c (Proc.devRef .tc main_arg0)) (W1 m ρ c (Proc.devRef .tc main_v0)) (W1 m ρ c (Proc.devRef .tc main_arg5)) = _
  rw [W1_arg0, W1_v0, W1_arg5]

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_v1 (c : Dev nD) : W2 m ρ c (Proc.devRef .tc main_v1) = tr (F := Ideal) (m ((c : Thread nD τ).loc main_arg6)) :=
  (W2_of_ne m ρ c main_v1 (by decide)).trans (W1_v1 m ρ c)
theorem W2_v2 (c : Dev nD) : W2 m ρ c (Proc.devRef .tc main_v2) = tr (F := Ideal) (m ((c : Thread nD τ).loc main_arg8)) :=
  (W2_of_ne m ρ c main_v2 (by decide)).trans (W1_v2 m ρ c)
/-- The first kernel reads `x` through a window and leaves it as it was. -/
theorem W2_arg0 (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (W1_arg0 m ρ c))

/-! ## Before the second kernel -/

theorem W3_arg0 (c : Dev nD) : W3 m ρ c (Proc.devRef .tc main_arg0) = m ((c : Thread nD τ).loc main_arg0) := by
  show StableHlo.after hostOps1 (W2 m ρ c) (Proc.devRef .tc main_arg0) = _
  after_results
  exact W2_arg0 m ρ c
theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c
theorem W3_arg3 (c : Dev nD) : W3 m ρ c (Proc.devRef .tc main_arg3) = m ((c : Thread nD τ).loc main_arg3) := by
  show StableHlo.after hostOps1 (W2 m ρ c) (Proc.devRef .tc main_arg3) = _
  after_results
  exact W2_arg3 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results
  exact W2_arg7 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results
  exact W2_arg10 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results
  exact W2_arg11 m ρ c
theorem W3_v1 (c : Dev nD) : W3 m ρ c (Proc.devRef .tc main_v1) = tr (F := Ideal) (m ((c : Thread nD τ).loc main_arg6)) := by
  show StableHlo.after hostOps1 (W2 m ρ c) (Proc.devRef .tc main_v1) = _
  after_results
  exact W2_v1 m ρ c
theorem W3_v2 (c : Dev nD) : W3 m ρ c (Proc.devRef .tc main_v2) = tr (F := Ideal) (m ((c : Thread nD τ).loc main_arg8)) := by
  show StableHlo.after hostOps1 (W2 m ρ c) (Proc.devRef .tc main_v2) = _
  after_results
  exact W2_v2 m ρ c

set_option maxHeartbeats 2000000 in
/-- The host operations of `take`, from any contents, leave `take` with fill of the first kernel's array at the
    indices `j` (at any float instance: the operations are read, not evaluated). -/
theorem after_take {F : FTy → Type} [FloatOps F] (W : Valuation τ sig (Elt F)) :
    StableHlo.after (hostOps1 (F := F)) W (Proc.devRef .tc main_v4)
      = takeRows (F := F) (W (Proc.devRef .tc main_v3)) (W (Proc.devRef .tc main_arg2)) := by
  after_results_simp
  simp only [TRef.ofBuf, TRef.toBuf, cast_eq]
  rfl

/-- The taken rows: `take` with fill of the linear layer at the indices `j`. -/
theorem W3_v4 (c : Dev nD) : W3 m ρ c (Proc.devRef .tc main_v4)
    = takeRows (wxhOf (m ((c : Thread nD τ).loc main_arg0)) (m ((c : Thread nD τ).loc main_arg4)) (m ((c : Thread nD τ).loc main_arg5)))
        (m ((c : Thread nD τ).loc main_arg2)) := by
  refine (after_take (W2 m ρ c)).trans ?_
  rw [W2_v3, W2_arg2]

/-! ## After the second kernel -/

/-- The second kernel's array: the messages. -/
theorem W4_v5 (c : Dev nD) : W4 m ρ c (Proc.devRef .tc main_v5)
    = msgOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold msgOf
  refine (W4_arr m ρ c 6).trans ((final1 (V3 m ρ) c).trans ?_)
  show Spec.filt (W3 m ρ c (Proc.devRef .tc main_arg3)) (W3 m ρ c (Proc.devRef .tc main_v1)) (W3 m ρ c (Proc.devRef .tc main_arg7))
    (W3 m ρ c (Proc.devRef .tc main_v2)) (W3 m ρ c (Proc.devRef .tc main_arg9)) (W3 m ρ c (Proc.devRef .tc main_v4)) = _
  rw [W3_arg3, W3_v1, W3_arg7, W3_v2, W3_arg9, W3_v4]

theorem W4_arg0 (c : Dev nD) : W4 m ρ c (Proc.devRef .tc main_arg0) = m ((c : Thread nD τ).loc main_arg0) :=
  (W4_of_ne m ρ c main_arg0 (by decide)).trans (W3_arg0 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)

/-! ## Before the third kernel -/

theorem W5_arg0 (c : Dev nD) : W5 m ρ c (Proc.devRef .tc main_arg0) = m ((c : Thread nD τ).loc main_arg0) := by
  show StableHlo.after hostOps2 (W4 m ρ c) (Proc.devRef .tc main_arg0) = _
  after_results
  exact W4_arg0 m ρ c
theorem W5_arg10 (c : Dev nD) : W5 m ρ c (Proc.devRef .tc main_arg10) = m ((c : Thread nD τ).loc main_arg10) := by
  show StableHlo.after hostOps2 (W4 m ρ c) (Proc.devRef .tc main_arg10) = _
  after_results
  exact W4_arg10 m ρ c
theorem W5_arg11 (c : Dev nD) : W5 m ρ c (Proc.devRef .tc main_arg11) = m ((c : Thread nD τ).loc main_arg11) := by
  show StableHlo.after hostOps2 (W4 m ρ c) (Proc.devRef .tc main_arg11) = _
  after_results
  exact W4_arg11 m ρ c

/-- The scattered sums: the messages added into rows `i` of a zero array. -/
theorem W5_v8 (c : Dev nD) : W5 m ρ c (Proc.devRef .tc main_v8)
    = scatterRows (m ((c : Thread nD τ).loc main_arg1)) (msgOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps2 (W4 m ρ c) (Proc.devRef .tc main_v8) = _
  rw [← W4_v5 m ρ c, ← W4_arg1 m ρ c]
  unfold scatterRows
  after_results

/-! ## The result -/

/-- The program's result array, as the run leaves it, is the layer's output of the argument arrays. -/
theorem result_eq (c : Dev nD) : W6 m ρ c (Proc.devRef .tc main_v9)
    = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold outOf
  refine (W6_arr m ρ c 4).trans ((final2 (V5 m ρ) c).trans ?_)
  show Spec.ln (W5 m ρ c (Proc.devRef .tc main_arg0)) (W5 m ρ c (Proc.devRef .tc main_v8)) (W5 m ρ c (Proc.devRef .tc main_arg10))
    (W5 m ρ c (Proc.devRef .tc main_arg11)) = _
  rw [W5_arg0, W5_v8, W5_arg10, W5_arg11]

end Cert.KernelIdeal.Hand

end
-- ==== Proof.RefIsSpec.lean ====
/-
  The reference program read entry by entry on the extended reals. Its linear layer is the row-by-matrix sum plus
  the bias; its filter network is two such products, the gate x / (1 + e^(-x)), a third product with its bias, and
  an entrywise scaling; its normalisation subtracts the row mean and divides by the root of the mean square plus a
  small constant. Each is the matching specification function, the last one because dividing by the root of a
  positive quantity is multiplying by its reciprocal root.
-/
import proofs.«409831_j66666482368669_1_alg».proof.Proof.Gen.ReferenceIdeal.Read
import proofs.«409831_j66666482368669_1_alg».proof.Proof.Spec
import Idealize.ShloMosaic.Lib.ValueIdx
import Idealize.ShloMosaic.PureOps.Ideal.Laws
import Idealize.ShloMosaic.Lib.Pipeline.Value

noncomputable section

namespace Cert.ReferenceIdeal.Hand

open Cert.ReferenceIdeal Cert.ReferenceIdeal.Read Idealize.ShloMosaic Idealize.ShloMosaic.ValueIdx

/-- The linear layer of the reference: at row `p`, column `q`, the sum over `k` of `x[p, k] · Wᵀ[k, q]`, plus `b[q]`. -/
theorem ref_wxh (x0 : (⟨S50000x128, .f32⟩ : BufTy).Contents (Elt Ideal)) (x4 : (⟨S128x128, .f32⟩ : BufTy).Contents (Elt Ideal))
    (x5 : (⟨S128, .f32⟩ : BufTy).Contents (Elt Ideal)) :
    val_main_v4 (F := Ideal) x0 x4 x5 = Cert.Spec.lin x0 (val_main_v0 (F := Ideal) x4) x5 := by
  funext i
  obtain ⟨p, q, rfl⟩ : ∃ (p : Fin 50000) (q : Fin 128), i = ix2 p q := ⟨i 0, i 1, eq_ix2 i⟩
  rw [val_main_v4_apply, val_main_v1_apply, val_main_v3_apply, val_main_v2_apply]
  have el : ∀ k : Fin 128, lidx_main_v1 (ix2 p q) k = ix2 p k := fun k =>
    funext fun a => Fin.ext (by match a with | ⟨0, _⟩ => rfl | ⟨1, _⟩ => rfl)
  have er : ∀ k : Fin 128, ridx_main_v1 (ix2 p q) k = ix2 k q := fun k =>
    funext fun a => Fin.ext (by match a with | ⟨0, _⟩ => rfl | ⟨1, _⟩ => rfl)
  have eb : idx_main_v2 (idx_main_v3 (ix2 p q)) = ix1 q :=
    funext fun a => Fin.ext (by match a with | ⟨0, _⟩ => rfl)
  rw [eb]
  simp only [el, er]
  rfl

/-- The word of `1.0` is one. -/
theorem one_word : Ideal.ofBits .f32 0x3F800000#32 = 1 := by
  simp [Ideal.ofBits, Ideal.ieee, -EReal.coe_mul]; norm_num

/-- The first product of the filter network: the edge features by the transposed first weight. -/
theorem ref_m1 (x3 : (⟨S600000x128, .f32⟩ : BufTy).Contents (Elt Ideal)) (x6 : (⟨S128x128, .f32⟩ : BufTy).Contents (Elt Ideal)) :
    val_main_v6 (F := Ideal) x3 x6 = Cert.Spec.mm x3 (val_main_v5 (F := Ideal) x6) := by
  funext i
  obtain ⟨p, q, rfl⟩ : ∃ (p : Fin 600000) (q : Fin 128), i = ix2 p q := ⟨i 0, i 1, eq_ix2 i⟩
  rw [val_main_v6_apply]
  have el : ∀ k : Fin 128, lidx_main_v6 (ix2 p q) k = ix2 p k := fun k =>
    funext fun a => Fin.ext (by match a with | ⟨0, _⟩ => rfl | ⟨1, _⟩ => rfl)
  have er : ∀ k : Fin 128, ridx_main_v6 (ix2 p q) k = ix2 k q := fun k =>
    funext fun a => Fin.ext (by match a with | ⟨0, _⟩ => rfl | ⟨1, _⟩ => rfl)
  simp only [el, er]
  rfl

/-- The second product, by the same transposed weight, plus the first bias. -/
theorem ref_h (x3 : (⟨S600000x128, .f32⟩ : BufTy).Contents (Elt Ideal)) (x6 : (⟨S128x128, .f32⟩ : BufTy).Contents (Elt Ideal))
    (x7 : (⟨S128, .f32⟩ : BufTy).Contents (Elt Ideal)) :
    val_main_v11 (F := Ideal) x3 x6 x7
      = Cert.Spec.lin (Cert.Spec.mm x3 (val_main_v5 (F := Ideal) x6)) (val_main_v5 (F := Ideal) x6) x7 := by
  funext i
  obtain ⟨p, q, rfl⟩ : ∃ (p : Fin 600000) (q : Fin 128), i = ix2 p q := ⟨i 0, i 1, eq_ix2 i⟩
  rw [val_main_v11_apply, val_main_v8_apply, val_main_v10_apply, val_main_v9_apply, ref_m1]
  have el : ∀ k : Fin 128, lidx_main_v8 (ix2 p q) k = ix2 p k := fun k =>
    funext fun a => Fin.ext (by match a with | ⟨0, _⟩ => rfl | ⟨1, _⟩ => rfl)
  have er : ∀ k : Fin 128, ridx_main_v8 (ix2 p q) k = ix2 k q := fun k =>
    funext fun a => Fin.ext (by match a with | ⟨0, _⟩ => rfl | ⟨1, _⟩ => rfl)
  have eb : idx_main_v9 (idx_main_v10 (ix2 p q)) = ix1 q :=
    funext fun a => Fin.ext (by match a with | ⟨0, _⟩ => rfl)
  rw [eb]
  simp only [el, er]
  rfl

/-- The gate: each entry `h` becomes `h · (1 / (1 + e^(-h)))`. -/
theorem ref_gate (x3 : (⟨S600000x128, .f32⟩ : BufTy).Contents (Elt Ideal)) (x6 : (⟨S128x128, .f32⟩ : BufTy).Contents (Elt Ideal))
    (x7 : (⟨S128, .f32⟩ : BufTy).Contents (Elt Ideal)) (i : S600000x128.Idx) :
    val_main_v12 (F := Ideal) x3 x6 x7 i
      = Cert.Spec.silu (Cert.Spec.lin (Cert.Spec.mm x3 (val_main_v5 (F := Ideal) x6)) (val_main_v5 (F := Ideal) x6) x7 i) := by
  rw [val_main_v12_apply, val_main_call0_v5_apply, val_main_call0_v4_apply, val_main_call0_cst_0_apply, val_main_call0_v3_apply,
    val_main_call0_v2_apply, val_main_call0_cst_apply, val_main_call0_v1_apply, val_main_call0_v0_apply, ref_h]
  show _ * Ideal.div (Ideal.ofBits .f32 0x3F800000#32) (Ideal.ofBits .f32 0x3F800000#32 + Ideal.exp (-_)) = _
  rw [one_word]
  rfl

/-- The filter network of the reference, scaled entry by entry by the gathered rows. -/
theorem ref_msg (x0 : (⟨S50000x128, .f32⟩ : BufTy).Contents (Elt Ideal)) (x2 : (⟨S600000, .i32⟩ : BufTy).Contents (Elt Ideal))
    (x3 : (⟨S600000x128, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) :
    val_main_v25 (F := Ideal) x0 x2 x3 x4 x5 x6 x7 x8 x9
      = Cert.Spec.filt x3 (val_main_v5 (F := Ideal) x6) x7 (val_main_v13 (F := Ideal) x8) x9 (val_main_v24 (F := Ideal) x0 x2 x4 x5) := by
  funext i
  obtain ⟨p, q, rfl⟩ : ∃ (p : Fin 600000) (q : Fin 128), i = ix2 p q := ⟨i 0, i 1, eq_ix2 i⟩
  rw [val_main_v25_apply, val_main_v17_apply, val_main_v14_apply, val_main_v16_apply, val_main_v15_apply]
  have el : ∀ k : Fin 128, lidx_main_v14 (ix2 p q) k = ix2 p k := fun k =>
    funext fun a => Fin.ext (by match a with | ⟨0, _⟩ => rfl | ⟨1, _⟩ => rfl)
  have er : ∀ k : Fin 128, ridx_main_v14 (ix2 p q) k = ix2 k q := fun k =>
    funext fun a => Fin.ext (by match a with | ⟨0, _⟩ => rfl | ⟨1, _⟩ => rfl)
  have eb : idx_main_v15 (idx_main_v16 (ix2 p q)) = ix1 q :=
    funext fun a => Fin.ext (by match a with | ⟨0, _⟩ => rfl)
  rw [eb]
  simp only [el, er, ref_gate]
  rfl

/-! ## The normalisation -/

section Norm

variable (x0 : (⟨S50000x128, .f32⟩ : BufTy).Contents (Elt Ideal)) (x1 x2 : (⟨S600000, .i32⟩ : BufTy).Contents (Elt Ideal))
  (x3 : (⟨S600000x128, .f32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 x10 x11 : (⟨S128, .f32⟩ : BufTy).Contents (Elt Ideal))

/-- The hidden array is the input plus the aggregated messages, entry by entry. -/
theorem ref_hid (p : Fin 50000) (k : Fin 128) :
    val_main_v29 (F := Ideal) x0 x1 x2 x3 x4 x5 x6 x7 x8 x9 (ix2 p k)
      = Cert.Spec.hid x0 (val_main_v28 (F := Ideal) x0 x1 x2 x3 x4 x5 x6 x7 x8 x9) p k := rfl

/-- The column of row means: the row's sum, started from the zero word, over the word of 128. -/
theorem ref_mu (p : Fin 50000) (u : Fin 1) :
    val_main_v33 (F := Ideal) x0 x1 x2 x3 x4 x5 x6 x7 x8 x9 (ix2 p u)
      = Cert.Spec.mu x0 (val_main_v28 (F := Ideal) x0 x1 x2 x3 x4 x5 x6 x7 x8 x9) p := by
  rw [val_main_v33_apply, val_main_v31_apply, val_main_v30_apply, val_main_v32_apply, val_main_cst_2_apply, val_main_cst_1_apply]
  have e : ∀ k : Fin 128, idx_main_v30 (idx_main_v31 (ix2 p u)) k = ix2 p k := fun k =>
    funext fun a => Fin.ext (by match a with | ⟨0, _⟩ => rfl | ⟨1, _⟩ => rfl)
  simp only [e, ref_hid]
  show Ideal.div (Ideal.ofBits .f32 0x00000000#32 + _) _ = _
  rw [Ideal.ofBits_zero_f32, zero_add]
  rfl

/-- An entry less its row's mean, in both places the reference computes it. -/
theorem ref_dev (p : Fin 50000) (q : Fin 128) :
    val_main_v35 (F := Ideal) x0 x1 x2 x3 x4 x5 x6 x7 x8 x9 (ix2 p q)
      = Cert.Spec.dev x0 (val_main_v28 (F := Ideal) x0 x1 x2 x3 x4 x5 x6 x7 x8 x9) p q := by
  have e : idx_main_v34 (ix2 p q) = ix2 p (0 : Fin 1) :=
    funext fun a => Fin.ext (by match a with | ⟨0, _⟩ => rfl | ⟨1, _⟩ => rfl)
  rw [val_main_v35_apply, val_main_v34_apply, e, ref_mu, ref_hid]
  rfl

/-- The same deviation, as the reference computes it a second time for the quotient. -/
theorem ref_dev' (p : Fin 50000) (q : Fin 128) :
    val_main_v42 (F := Ideal) x0 x1 x2 x3 x4 x5 x6 x7 x8 x9 (ix2 p q)
      = Cert.Spec.dev x0 (val_main_v28 (F := Ideal) x0 x1 x2 x3 x4 x5 x6 x7 x8 x9) p q := by
  have e : idx_main_v41 (ix2 p q) = ix2 p (0 : Fin 1) :=
    funext fun a => Fin.ext (by match a with | ⟨0, _⟩ => rfl | ⟨1, _⟩ => rfl)
  rw [val_main_v42_apply, val_main_v41_apply, e, ref_mu, ref_hid]
  rfl

/-- The quantity under the root: the mean of the squared deviations plus the small constant. -/
theorem ref_var (p : Fin 50000) (u : Fin 1) :
    val_main_v44 (F := Ideal) x0 x1 x2 x3 x4 x5 x6 x7 x8 x9 (ix2 p u)
      = Cert.Spec.vareps x0 (val_main_v28 (F := Ideal) x0 x1 x2 x3 x4 x5 x6 x7 x8 x9) p := by
  rw [val_main_v44_apply, val_main_v40_apply, val_main_v38_apply, val_main_v37_apply, val_main_v39_apply, val_main_cst_4_apply,
    val_main_v43_apply, val_main_cst_5_apply, val_main_cst_3_apply]
  have e : ∀ k : Fin 128, idx_main_v37 (idx_main_v38 (ix2 p u)) k = ix2 p k := fun k =>
    funext fun a => Fin.ext (by match a with | ⟨0, _⟩ => rfl | ⟨1, _⟩ => rfl)
  simp only [e, val_main_v36_apply, ref_dev]
  show Ideal.div (Ideal.ofBits .f32 0x00000000#32 + _) _ + _ = _
  rw [Ideal.ofBits_zero_f32, zero_add]
  rfl

/-- The normalisation of the reference. It divides the deviation by the root where the specification multiplies by
    the reciprocal root; the quantity under the root is positive, so the two agree. -/
theorem ref_out :
    val_main_v53 (F := Ideal) x0 x1 x2 x3 x4 x5 x6 x7 x8 x9 x10 x11
      = Cert.Spec.ln x0 (val_main_v28 (F := Ideal) x0 x1 x2 x3 x4 x5 x6 x7 x8 x9) x10 x11 := by
  funext i
  obtain ⟨p, q, rfl⟩ : ∃ (p : Fin 50000) (q : Fin 128), i = ix2 p q := ⟨i 0, i 1, eq_ix2 i⟩
  have es : idx_main_v46 (ix2 p q) = ix2 p (0 : Fin 1) :=
    funext fun a => Fin.ext (by match a with | ⟨0, _⟩ => rfl | ⟨1, _⟩ => rfl)
  have eg : idx_main_v48 (idx_main_v49 (ix2 p q)) = ix1 q :=
    funext fun a => Fin.ext (by match a with | ⟨0, _⟩ => rfl)
  have eb : idx_main_v51 (idx_main_v52 (ix2 p q)) = ix1 q :=
    funext fun a => Fin.ext (by match a with | ⟨0, _⟩ => rfl)
  rw [val_main_v53_apply, val_main_v50_apply, val_main_v47_apply, val_main_v46_apply, es, val_main_v45_apply, ref_var, ref_dev',
    val_main_v49_apply, val_main_v48_apply, eg, val_main_v52_apply, val_main_v51_apply, eb]
  show Ideal.div (Cert.Spec.dev x0 _ p q) (Ideal.sqrt (Cert.Spec.vareps x0 _ p)) * x10 (ix1 q) + x11 (ix1 q)
    = Cert.Spec.dev x0 _ p q * Ideal.rsqrt (Cert.Spec.vareps x0 _ p) * x10 (ix1 q) + x11 (ix1 q)
  rw [Cert.Spec.mul_rsqrt_eq_div_sqrt _ (Cert.Spec.vareps_pos _ _ _)]

end Norm

end Cert.ReferenceIdeal.Hand

end
-- ==== Proof.Bridge.lean ====
/-
  The two programs compute one function. The reference's stages are the same specification functions as the
  kernel's three arrays; its transposes, its index wrap, its gather and its scatter-add are the host operations the
  kernel program runs between its kernels; and where `take` with fill is the plain gather (every index in range) the
  reference's result is the kernel program's result, term for term.
-/
import proofs.«409831_j66666482368669_1_alg».proof.Proof.HostValues
import proofs.«409831_j66666482368669_1_alg».proof.Proof.RefIsSpec

set_option maxRecDepth 16384

noncomputable section

namespace Cert.Proof.Hand

open Idealize.ShloMosaic Cert.KernelIdeal.Hand Cert.ReferenceIdeal.Read Cert.ReferenceIdeal.Hand

variable (x0 : (⟨Cert.ReferenceIdeal.S50000x128, .f32⟩ : BufTy).Contents (Elt Ideal))
  (x1 x2 : (⟨Cert.ReferenceIdeal.S600000, .i32⟩ : BufTy).Contents (Elt Ideal))
  (x3 : (⟨Cert.ReferenceIdeal.S600000x128, .f32⟩ : BufTy).Contents (Elt Ideal))
  (x4 : (⟨Cert.ReferenceIdeal.S128x128, .f32⟩ : BufTy).Contents (Elt Ideal))
  (x5 : (⟨Cert.ReferenceIdeal.S128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (x8 : (⟨Cert.ReferenceIdeal.S128x128, .f32⟩ : BufTy).Contents (Elt Ideal))
  (x9 x10 x11 : (⟨Cert.ReferenceIdeal.S128, .f32⟩ : BufTy).Contents (Elt Ideal))

/-- The reference's transposed weights are the kernel program's. -/
theorem ref_tr4 : val_main_v0 (F := Ideal) x4 = tr (F := Ideal) x4 := rfl
theorem ref_tr6 : val_main_v5 (F := Ideal) x6 = tr (F := Ideal) x6 := rfl
theorem ref_tr8 : val_main_v13 (F := Ideal) x8 = tr (F := Ideal) x8 := rfl

/-- The reference's linear layer is the kernel program's. -/
theorem ref_wxhOf : val_main_v4 (F := Ideal) x0 x4 x5 = wxhOf x0 x4 x5 := by
  rw [ref_wxh, ref_tr4]; rfl

/-- The reference's wrapped index column is the kernel program's. -/
theorem ref_wrap : val_main_v23 (F := Ideal) x2 = wrapIdx x2 := rfl

/-- The reference's gathered rows are the kernel program's plain gather. -/
theorem ref_gather : val_main_v24 (F := Ideal) x0 x2 x4 x5 = gatherRows (wxhOf x0 x4 x5) (wrapIdx x2) := by
  unfold val_main_v24
  rw [ref_wxhOf, ref_wrap]; rfl

/-- Where `take` with fill is the plain gather, the reference's messages are the kernel program's. -/
theorem ref_msgOf (htake : takeRows (wxhOf x0 x4 x5) x2 = gatherRows (wxhOf x0 x4 x5) (wrapIdx x2)) :
    val_main_v25 (F := Ideal) x0 x2 x3 x4 x5 x6 x7 x8 x9 = msgOf x0 x2 x3 x4 x5 x6 x7 x8 x9 := by
  unfold msgOf
  rw [ref_msg, ref_tr6, ref_tr8, ref_gather, htake]

/-- … and so are its scattered sums … -/
theorem ref_agg (htake : takeRows (wxhOf x0 x4 x5) x2 = gatherRows (wxhOf x0 x4 x5) (wrapIdx x2)) :
    val_main_v28 (F := Ideal) x0 x1 x2 x3 x4 x5 x6 x7 x8 x9 = scatterRows x1 (msgOf x0 x2 x3 x4 x5 x6 x7 x8 x9) := by
  unfold val_main_v28
  rw [ref_msgOf x0 x2 x3 x4 x5 x6 x7 x8 x9 htake]; rfl

/-- … and its result. -/
theorem ref_eq_outOf (htake : takeRows (wxhOf x0 x4 x5) x2 = gatherRows (wxhOf x0 x4 x5) (wrapIdx x2)) :
    val_main_v53 (F := Ideal) x0 x1 x2 x3 x4 x5 x6 x7 x8 x9 x10 x11 = outOf x0 x1 x2 x3 x4 x5 x6 x7 x8 x9 x10 x11 := by
  unfold outOf
  rw [ref_out, ref_agg x0 x1 x2 x3 x4 x5 x6 x7 x8 x9 htake]

end Cert.Proof.Hand

end
-- ==== Proof.TakeInRange.lean ====
/-
  The last conjunct of the precondition says every row index lies in 0 … 49999. Read back from the printed
  predicate, it makes the wrap of a negative index the identity and the range test 1 at every entry, so that
  `take` with fill is the plain gather of rows.
-/
import proofs.«409831_j66666482368669_1_alg».proof.Proof.HostTerms
import proofs.«409831_j66666482368669_1_alg».proof.Pre_finite_inputs
import proofs.«409831_j66666482368669_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value
import Idealize.ShloMosaic.PureOps.Reduce

noncomputable section

namespace Cert.KernelIdeal.Hand

open Cert.KernelIdeal Cert.KernelIdeal.Facts₀ Cert.KernelIdeal.Facts Idealize.ShloMosaic Idealize.ShloMosaic.ValueIdx

/-- The added conjunct read back: every index lies in 0 … 49999 (signed compares). -/
theorem j_in_range (a0 : FVec Ideal Cert.Pre_finite_inputs.S50000x128 .f32) (a1 a2 : IVec Cert.Pre_finite_inputs.S600000 32)
    (a3 : FVec Ideal Cert.Pre_finite_inputs.S600000x128 .f32) (a4 : FVec Ideal Cert.Pre_finite_inputs.S128x128 .f32)
    (a5 : FVec Ideal Cert.Pre_finite_inputs.S128 .f32) (a6 : FVec Ideal Cert.Pre_finite_inputs.S128x128 .f32)
    (a7 : FVec Ideal Cert.Pre_finite_inputs.S128 .f32) (a8 : FVec Ideal Cert.Pre_finite_inputs.S128x128 .f32)
    (a9 a10 a11 : FVec Ideal Cert.Pre_finite_inputs.S128 .f32)
    (h : Cert.Pre_finite_inputs.fn (F := Ideal) a0 a1 a2 a3 a4 a5 a6 a7 a8 a9 a10 a11 = fun _ => 1#1)
    (e : Cert.Pre_finite_inputs.S600000.Idx) :
    IntOp.cmpi .sge (a2 e) 0#32 = 1#1 ∧ IntOp.cmpi .sle (a2 e) 49999#32 = 1#1 := by
  -- the scalar shape has one index
  haveI : Subsingleton Cert.Pre_finite_inputs.S_.Idx := ⟨fun a b => funext fun d => d.elim0⟩
  -- the predicate's one entry is 1; it is a conjunction whose last conjunct is the `and` over all entries
  have h0 := congrFun h ValueIdx.ix0
  unfold Cert.Pre_finite_inputs.fn Cert.Pre_finite_inputs.fn_part1 Cert.Pre_finite_inputs.fn_part2
    Cert.Pre_finite_inputs.fn_part3 at h0
  dsimp only at h0
  have h1 := (IntOp.andi_eq_one.1 h0).2
  have h2 := Host.reduce_andi_all _ _ _ _ _ h1 e
  exact IntOp.andi_eq_one.1 h2

/-! ## Words -/

/-- A word that is not below zero (signed) fails the signed test `< 0`. -/
theorem slt_zero_of_sge_zero (v : BitVec 32) (h : IntOp.cmpi .sge v 0#32 = 1#1) : IntOp.cmpi .slt v 0#32 = 0#1 := by
  have h' : (0#32).sle v = true := (StableHlo.Predicate.ofBool_eq_one_iff _).1 h
  have hn : v.slt 0#32 = false := by
    rw [BitVec.sle, decide_eq_true_eq] at h'
    rw [BitVec.slt, decide_eq_false_iff_not]
    omega
  show BitVec.ofBool (v.slt 0#32) = 0#1
  rw [hn]
  rfl

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi (1#1 : BitVec 1) 1#1 = 1#1 from by decide]
    exact foldl_andi_one f hf l

/-! ## The wrap and the range test under the hypothesis -/

section InRange

variable (j : IVec S600000 32)
  (hj : ∀ e : S600000.Idx, IntOp.cmpi .sge (j e) 0#32 = 1#1 ∧ IntOp.cmpi .sle (j e) 49999#32 = 1#1)

include hj

/-- No index is negative, so the wrap leaves every index as it is. -/
theorem wrapIdx_apply (r : Fin 600000) (u : Fin 1) : wrapIdx j (ix2 r u) = j (ix1 r) := by
  unfold wrapIdx
  rw [broadcastInDim_apply _ bcast_S600000_S600000x1_0 _ (ix2 r u) (ix1 r) (fun a => match a with
    | ⟨0, _⟩ => by show r.val = if (600000 : Nat) = 1 then 0 else r.val; rw [if_neg (by decide)]), select_apply]
  show Scalar.select (IntOp.cmpi .slt (j (ix1 r)) 0#32) _ _ = _
  rw [slt_zero_of_sge_zero _ (hj (ix1 r)).1, ValueIdx.select_zero]

/-- Every entry of the compared column is 1. -/
theorem inRange_elem (n : S600000x1.Idx) :
    andi (cmpi .sge (wrapIdx j) (broadcastInDim S600000x1 ![] bcast_S_S600000x1 (constantI S_ 32 0#32)))
      (cmpi .sle (wrapIdx j) (broadcastInDim S600000x1 ![0, 1] bcast_S1x1_S600000x1_0_1
        (broadcastInDim S1x1 ![1] bcast_S1_S1x1_1 (constantI S1 32 49999#32)))) n = 1#1 := by
  obtain ⟨r, u, rfl⟩ : ∃ (r : Fin 600000) (u : Fin 1), n = ix2 r u := ⟨n 0, n 1, eq_ix2 n⟩
  show IntOp.andi (IntOp.cmpi .sge (wrapIdx j (ix2 r u)) 0#32) (IntOp.cmpi .sle (wrapIdx j (ix2 r u)) 49999#32) = 1#1
  rw [wrapIdx_apply j hj]
  exact IntOp.andi_eq_one.2 (hj (ix1 r))

/-- The range test is 1 at every entry. -/
theorem inRange_one (i : S600000x128.Idx) : inRange (wrapIdx j) i = 1#1 := by
  obtain ⟨r, q, rfl⟩ : ∃ (r : Fin 600000) (q : Fin 128), i = ix2 r q := ⟨i 0, i 1, eq_ix2 i⟩
  unfold inRange
  rw [broadcastInDim_apply _ bcast_S600000_S600000x128_0 _ (ix2 r q) (ix1 r) (fun a => match a with
    | ⟨0, _⟩ => by show r.val = if (600000 : Nat) = 1 then 0 else r.val; rw [if_neg (by decide)]), Host.reduce_eq_foldl]
  exact foldl_andi_one _ (inRange_elem j hj) _

end InRange

/-- With every index in range, `take` with fill is the plain gather of the rows. -/
theorem takeRows_eq_gatherRows (x : FVec Ideal S50000x128 .f32) (j : IVec S600000 32)
    (hj : ∀ e : S600000.Idx, IntOp.cmpi .sge (j e) 0#32 = 1#1 ∧ IntOp.cmpi .sle (j e) 49999#32 = 1#1) :
    takeRows x j = gatherRows x (wrapIdx j) := by
  funext i
  unfold takeRows
  rw [select_apply, inRange_one j hj, ValueIdx.select_one]

end Cert.KernelIdeal.Hand

end
-- ==== Proof.lean ====
/-
  A message-passing layer on 50000 nodes and 600000 edges: `Wxh = x · Wlᵀ + bl`; per edge the filter network
  `m = silu((rbf · W0ᵀ) · W0ᵀ + b0) · W2ᵀ + b2` scaled entry by entry by the row `Wxh[j]`; the messages added into the
  rows `i`; and the layer normalisation of `x` plus those sums, with gain and offset. The kernel program computes the
  three dense stages in three kernels, block by block of 5000 rows, and the gather and the scatter-add on the host;
  the reference computes everything on the host.

  On the extended reals the two are one function wherever every index `j` lies in `0 … 49999`, which the
  precondition states: outside it the kernel program's `take` fills a row with the not-a-number word where the
  reference's indexing clamps. Inside it the `take` is the plain gather; each kernel's array is its stage of the
  specification, because a block of rows of a row-by-row function is that function of the block of rows and the
  blocks tile the arrays; the changes of float format are the identity; and `d · (v)^(-1/2)` is `d / √v` for the
  positive `v` under the root, a mean of squares plus a positive constant. No finiteness of the float inputs is used.
-/
import proofs.«409831_j66666482368669_1_alg».proof.Defs
import proofs.«409831_j66666482368669_1_alg».proof.Proof.Gen.Kernel
import proofs.«409831_j66666482368669_1_alg».proof.Proof.Gen.Kernel.Skeleton
import proofs.«409831_j66666482368669_1_alg».proof.Proof.Gen.Kernel.Launch
import proofs.«409831_j66666482368669_1_alg».proof.Proof.Gen.Kernel.Points
import proofs.«409831_j66666482368669_1_alg».proof.Proof.Gen.Kernel.Frame
import proofs.«409831_j66666482368669_1_alg».proof.Proof.Gen.KernelIdeal
import proofs.«409831_j66666482368669_1_alg».proof.Proof.Gen.KernelIdeal.Skeleton
import proofs.«409831_j66666482368669_1_alg».proof.Proof.Gen.KernelIdeal.Launch
import proofs.«409831_j66666482368669_1_alg».proof.Proof.Gen.KernelIdeal.Points
import proofs.«409831_j66666482368669_1_alg».proof.Proof.Gen.KernelIdeal.Frame
import proofs.«409831_j66666482368669_1_alg».proof.Proof.Gen.ReferenceIdeal
import proofs.«409831_j66666482368669_1_alg».proof.Proof.Gen.ReferenceIdeal.Run
import proofs.«409831_j66666482368669_1_alg».proof.Proof.Gen.ReferenceIdeal.Read
import proofs.«409831_j66666482368669_1_alg».proof.Proof.Gen.Pre_finite_inputs
import proofs.«409831_j66666482368669_1_alg».proof.Proof.KernelRun
import proofs.«409831_j66666482368669_1_alg».proof.Proof.HostValues
import proofs.«409831_j66666482368669_1_alg».proof.Proof.Bridge
import proofs.«409831_j66666482368669_1_alg».proof.Proof.TakeInRange
import Idealize.ShloMosaic.Adequacy
import Idealize.ShloMosaic.Init

noncomputable section

namespace Cert.Proof

open Idealize.ShloMosaic Idealize.SL.Sem

/-- The word-level program runs and leaves its arguments as they were. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with every index `j` in range, both programs end with the layer's
    output of those arguments in their result arrays. -/
theorem algebraic : Cert.algebraic_KernelIdeal_ReferenceIdeal := by
  intro m ρ m' ρ' hpre hagree
  refine ⟨fun c => Cert.KernelIdeal.Gen.W6 m ρ c (Proc.devRef .tc Cert.KernelIdeal.main_v9),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  show _ = Cert.KernelIdeal.Gen.W6 m ρ c (Proc.devRef .tc Cert.KernelIdeal.main_v9)
  rw [Cert.ReferenceIdeal.Read.val_main_v53_eq, Cert.KernelIdeal.Hand.result_eq m ρ c, h0, h1, h2, h3, h4, h5, h6, h7, h8, h9, h10, h11]
  exact Cert.Proof.Hand.ref_eq_outOf _ _ _ _ _ _ _ _ _ _ _ _
    (Cert.KernelIdeal.Hand.takeRows_eq_gatherRows _ _ fun e =>
      Cert.KernelIdeal.Hand.j_in_range _ _ _ _ _ _ _ _ _ _ _ _ (hpre c) e)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
